-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x16 .f32) (main_arg5 : IVec S2048 32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  let main_c_8 : IVec S_ 32 := constantI S_ 32 0#32
  let main_v24 : IVec S2048 32 := broadcastInDim S2048 ![] bcast_S_S2048 main_c_8
  let main_v25 : IVec S2048 1 := cmpi .sge main_arg5 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v23 main_v26
  main_v27

def fn {F : FTy → Type} [FloatOps F] (main_arg0 : FVec F S2x4096x4096 .f32) (main_arg1 : FVec F S2048x2048 .f32) (main_arg2 : FVec F S2048 .f32) (main_arg3 : FVec F S16x2048 .f32) (main_arg4 : FVec F S2048x16 .f32) (main_arg5 : IVec S2048 32) (main_arg6 : IVec S2048 32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_v13 main_v16
-- ==== Kernel.lean ====
abbrev S2x4096x4096 : Shape := ⟨3, ![2, 4096, 4096]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S8192x4096 : Shape := ⟨2, ![8192, 4096]⟩
abbrev S2048x1 : Shape := ⟨2, ![2048, 1]⟩
abbrev S8192x2048 : Shape := ⟨2, ![8192, 2048]⟩
abbrev S1x2048 : Shape := ⟨2, ![1, 2048]⟩
abbrev S512x2048 : Shape := ⟨2, ![512, 2048]⟩
abbrev S512x16 : Shape := ⟨2, ![512, 16]⟩
abbrev S_ : Shape := ⟨0, ![]⟩

abbrev nBuf : Space → Nat
  | .hbm => 29
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S2048, .i32⟩
  | .hbm, ⟨6, _⟩ => ⟨S2048, .i32⟩
  | .hbm, ⟨7, _⟩ => ⟨S8192x4096, .f32⟩
  | .hbm, ⟨8, _⟩ => ⟨S2048x1, .i32⟩
  | .hbm, ⟨9, _⟩ => ⟨S8192x2048, .f32⟩
  | .hbm, ⟨10, _⟩ => ⟨S8192x2048, .bf16⟩
  | .hbm, ⟨11, _⟩ => ⟨S2048x2048, .bf16⟩
  | .hbm, ⟨12, _⟩ => ⟨S16x2048, .bf16⟩
  | .hbm, ⟨13, _⟩ => ⟨S16x2048, .f32⟩
  | .hbm, ⟨14, _⟩ => ⟨S16x2048, .bf16⟩
  | .hbm, ⟨15, _⟩ => ⟨S1x2048, .f32⟩
  | .hbm, ⟨16, _⟩ => ⟨S8192x2048, .f32⟩
  | .hbm, ⟨17, _⟩ => ⟨S_, .f32⟩
  | .hbm, ⟨18, _⟩ => ⟨S8192x4096, .f32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S8192x4096, .f32⟩
  | .hbm, ⟨28, _⟩ => ⟨S2x4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S16x2048, .bf16⟩
  | .local _ .vmem, ⟨4, _⟩ => ⟨S16x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4096x4096_S8192x4096 : S2x4096x4096.ShapeCasts S8192x4096
  bcast_S2048_S2048x1_0 : S2048.BroadcastsInDim S2048x1 (![0] : Fin 1 → Fin S2048x1.rank)
  bitsLt_bf16_f32 : FTy.bits .bf16 < FTy.bits .f32
  transposes_S2048x16_S16x2048_1_0 : S2048x16.Transposes [1, 0] S16x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bcast_S_S8192x4096 : S_.BroadcastsInDim S8192x4096 (![] : Fin 0 → Fin S8192x4096.rank)
  bcast_S_S2048 : S_.BroadcastsInDim S2048 (![] : Fin 0 → Fin S2048.rank)
  shapeCasts_S8192x4096_S2x4096x4096 : S8192x4096.ShapeCasts S2x4096x4096
  gather_S8192x4096_S2048x1_S8192x2048_0_1_n_n_1_1_81921_wf : GatherDims.WF S8192x4096 S2048x1 S8192x2048 [0] [1] [] [1] [] 1 ![8192, 1]
  dot_S512x2048_S2048x2048_S512x2048_1_1_0_0_n_n_wf : DotDims.WF S512x2048 S2048x2048 S512x2048 [1] [1] [0] [0] [] []
  dot_S512x2048_S16x2048_S512x16_1_1_0_0_n_n_wf : DotDims.WF S512x2048 S16x2048 S512x16 [1] [1] [0] [0] [] []
  dot_S512x16_S16x2048_S512x2048_1_0_0_1_n_n_wf : DotDims.WF S512x16 S16x2048 S512x2048 [1] [0] [0] [1] [] []
  scatter_S8192x4096_S2048x1_S8192x2048_0_1_1_1_wf : ScatterDims.WF S8192x4096 S2048x1 S8192x2048 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .bf16 = 32 ∨ (Rect.block (s := S16x2048) S16x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .bf16 = 32 ∨ (Rect.block (s := S16x2048) S16x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def gather_S8192x4096_S2048x1_S8192x2048_0_1_n_n_1_1_81921 : GatherDims S8192x4096 S2048x1 S8192x2048 where
  offsetDims := [0]
  collapsedSliceDims := [1]
  operandBatchingDims := []
  startIndicesBatchingDims := []
  startIndexMap := [1]
  indexVectorDim := 1
  sliceSizes := ![8192, 1]
  wf := gather_S8192x4096_S2048x1_S8192x2048_0_1_n_n_1_1_81921_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def scatter_S8192x4096_S2048x1_S8192x2048_0_1_1_1 : ScatterDims S8192x4096 S2048x1 S8192x2048 where
  updateWindowDims := [0]
  insertedWindowDims := [1]
  scatterDimsToOperandDims := [1]
  indexVectorDim := 1
  wf := scatter_S8192x4096_S2048x1_S8192x2048_0_1_1_1_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S8192x4096 : Shape := ⟨2, ![8192, 4096]⟩
abbrev S_ : Shape := ⟨0, ![]⟩
abbrev S2048x1 : Shape := ⟨2, ![2048, 1]⟩
abbrev S8192x2048 : Shape := ⟨2, ![8192, 2048]⟩
abbrev S8192x16 : Shape := ⟨2, ![8192, 16]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S2048, .i32⟩
  | .hbm, ⟨6, _⟩ => ⟨S2048, .i32⟩
  | .hbm, ⟨7, _⟩ => ⟨S8192x4096, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S8192x2048, .f32⟩
  | .hbm, ⟨17, _⟩ => ⟨S8192x16, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x4096, .f32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S8192x4096, .f32⟩
  | .hbm, ⟨38, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  shapeCasts_S2x4096x4096_S8192x4096 : S2x4096x4096.ShapeCasts S8192x4096
  bcast_S_S2048 : S_.BroadcastsInDim S2048 (![] : Fin 0 → Fin S2048.rank)
  bcast_S2048_S2048x1_0 : S2048.BroadcastsInDim S2048x1 (![0] : Fin 1 → Fin S2048x1.rank)
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x4096 : S_.BroadcastsInDim S8192x4096 (![] : Fin 0 → Fin S8192x4096.rank)
  shapeCasts_S8192x4096_S2x4096x4096 : S8192x4096.ShapeCasts S2x4096x4096
  gather_S8192x4096_S2048x1_S8192x2048_0_1_n_n_1_1_81921_wf : GatherDims.WF S8192x4096 S2048x1 S8192x2048 [0] [1] [] [1] [] 1 ![8192, 1]
  dot_S8192x2048_S16x2048_S8192x16_1_1_0_0_n_n_wf : DotDims.WF S8192x2048 S16x2048 S8192x16 [1] [1] [0] [0] [] []
  dot_S8192x16_S2048x16_S8192x2048_1_1_0_0_n_n_wf : DotDims.WF S8192x16 S2048x16 S8192x2048 [1] [1] [0] [0] [] []
  dot_S8192x2048_S2048x2048_S8192x2048_1_1_0_0_n_n_wf : DotDims.WF S8192x2048 S2048x2048 S8192x2048 [1] [1] [0] [0] [] []
  scatter_S8192x4096_S2048x1_S8192x2048_0_1_1_1_wf : ScatterDims.WF S8192x4096 S2048x1 S8192x2048 [0] [1] [1] 1

variable [Facts₀]

def gather_S8192x4096_S2048x1_S8192x2048_0_1_n_n_1_1_81921 : GatherDims S8192x4096 S2048x1 S8192x2048 where
  offsetDims := [0]
  collapsedSliceDims := [1]
  operandBatchingDims := []
  startIndicesBatchingDims := []
  startIndexMap := [1]
  indexVectorDim := 1
  sliceSizes := ![8192, 1]
  wf := gather_S8192x4096_S2048x1_S8192x2048_0_1_n_n_1_1_81921_wf
def dot_S8192x2048_S16x2048_S8192x16_1_1_0_0_n_n : DotDims S8192x2048 S16x2048 S8192x16 where
  lhsContracting := [1]
  rhsContracting := [1]
  lhsNonContracting := [0]
  rhsNonContracting := [0]
  lhsBatch := []
  rhsBatch := []
  wf := dot_S8192x2048_S16x2048_S8192x16_1_1_0_0_n_n_wf
def dot_S8192x16_S2048x16_S8192x2048_1_1_0_0_n_n : DotDims S8192x16 S2048x16 S8192x2048 where
  lhsContracting := [1]
  rhsContracting := [1]
  lhsNonContracting := [0]
  rhsNonContracting := [0]
  lhsBatch := []
  rhsBatch := []
  wf := dot_S8192x16_S2048x16_S8192x2048_1_1_0_0_n_n_wf
def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf
def scatter_S8192x4096_S2048x1_S8192x2048_0_1_1_1 : ScatterDims S8192x4096 S2048x1 S8192x2048 where
  updateWindowDims := [0]
  insertedWindowDims := [1]
  scatterDimsToOperandDims := [1]
  indexVectorDim := 1
  wf := scatter_S8192x4096_S2048x1_S8192x2048_0_1_1_1_wf

class Facts : Prop extends Facts₀ where

variable [Facts]
-- ==== Proof.Payload.lean ====
/-
  One grid step of the fused kernel, read entry by entry over the extended reals.

  A step holds a block `x` of 512 gathered rows, the whole weight `w` (2048 × 2048), the two low-rank factors
  `a` (16 × 2048) and `bt` (16 × 2048, the second factor already transposed) and the bias row `b` (1 × 2048).
  Over the extended reals a change of float format does nothing and a matrix product into a zero accumulator is the plain
  sum of products, so the entry (p, q) of what the step stores is

      (∑ₖ x[p,k]·w[q,k]  +  (∑ᵣ (∑ₖ x[p,k]·a[r,k])·bt[r,q]) · 2)  +  b[0,q].
-/
import proofs.«420023_j33844342292634_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-! ## The three products: which operand entries an output entry multiplies -/

abbrev dW := dot_S512x2048_S2048x2048_S512x2048_1_1_0_0_n_n
abbrev dA := dot_S512x2048_S16x2048_S512x16_1_1_0_0_n_n
abbrev dB := dot_S512x16_S16x2048_S512x2048_1_0_0_1_n_n

theorem lhs_W_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_W_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_W_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_W_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The base product: row `p` of the block against row `q` of the weight. -/
theorem base_apply (x : FVec Ideal S512x2048 .bf16) (w : FVec Ideal S2048x2048 .bf16) (p : Fin 512) (q : Fin 2048) :
    matmul dot_S512x2048_S2048x2048_S512x2048_1_1_0_0_n_n none x w (constant S512x2048 .f32 0x00000000#32) (ix2 p q)
      = ∑ k : Fin 2048, x (ix2 p k) * w (ix2 q k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact lhs_W_0 _ _
    | ⟨1, _⟩ => exact (lhs_W_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rhs_W_0 _ _
    | ⟨1, _⟩ => exact (rhs_W_1 _ _).trans hk)
  rw [el, er]

theorem lhs_A_0 (i : S512x16.Idx) (q : dot_S512x2048_S16x2048_S512x16_1_1_0_0_n_n.contr.Idx) :
    (dot_S512x2048_S16x2048_S512x16_1_1_0_0_n_n.lhsIdx i q 0).val = (i 0).val := by
  unfold DotDims.lhsIdx
  rw [dif_neg (show ¬(0 : Fin S512x2048.rank) ∈ dot_S512x2048_S16x2048_S512x16_1_1_0_0_n_n.lhsBatch by decide), dif_pos (show (0 : Fin S512x2048.rank) ∈ dot_S512x2048_S16x2048_S512x16_1_1_0_0_n_n.lhsNonContracting by decide)]
  rfl
theorem lhs_A_1 (i : S512x16.Idx) (q : dot_S512x2048_S16x2048_S512x16_1_1_0_0_n_n.contr.Idx) :
    (dot_S512x2048_S16x2048_S512x16_1_1_0_0_n_n.lhsIdx i q 1).val = (q ⟨0, by decide⟩).val :=
  dot_S512x2048_S16x2048_S512x16_1_1_0_0_n_n.lhsIdx_val_of_single rfl i q
theorem rhs_A_0 (i : S512x16.Idx) (q : dot_S512x2048_S16x2048_S512x16_1_1_0_0_n_n.contr.Idx) :
    (dot_S512x2048_S16x2048_S512x16_1_1_0_0_n_n.rhsIdx i q 0).val = (i 1).val := by
  unfold DotDims.rhsIdx
  rw [dif_neg (show ¬(0 : Fin S16x2048.rank) ∈ dot_S512x2048_S16x2048_S512x16_1_1_0_0_n_n.rhsBatch by decide), dif_pos (show (0 : Fin S16x2048.rank) ∈ dot_S512x2048_S16x2048_S512x16_1_1_0_0_n_n.rhsNonContracting by decide)]
  rfl
theorem rhs_A_1 (i : S512x16.Idx) (q : dot_S512x2048_S16x2048_S512x16_1_1_0_0_n_n.contr.Idx) :
    (dot_S512x2048_S16x2048_S512x16_1_1_0_0_n_n.rhsIdx i q 1).val = (q ⟨0, by decide⟩).val :=
  dot_S512x2048_S16x2048_S512x16_1_1_0_0_n_n.rhsIdx_val_of_single rfl i q

/-- The first low-rank product: row `p` of the block against row `r` of the first factor. -/
theorem down_apply (x : FVec Ideal S512x2048 .bf16) (a : FVec Ideal S16x2048 .bf16) (p : Fin 512) (r : Fin 16) :
    matmul dot_S512x2048_S16x2048_S512x16_1_1_0_0_n_n none x a (constant S512x16 .f32 0x00000000#32) (ix2 p r)
      = ∑ k : Fin 2048, x (ix2 p k) * a (ix2 r k) := by
  simp only [matmul]
  rw [Ideal.matmul_constant_zero_apply, ← Equiv.sum_comp (contrEquiv1 dot_S512x2048_S16x2048_S512x16_1_1_0_0_n_n 2048 rfl rfl).symm]
  refine Finset.sum_congr rfl fun k _ => ?_
  have hk := contrEquiv1_symm_val dot_S512x2048_S16x2048_S512x16_1_1_0_0_n_n 2048 rfl rfl k
  have el : dot_S512x2048_S16x2048_S512x16_1_1_0_0_n_n.lhsIdx (ix2 p r) ((contrEquiv1 dot_S512x2048_S16x2048_S512x16_1_1_0_0_n_n 2048 rfl rfl).symm k) = ix2 p k := funext fun a => Fin.ext (by
    match a with
    | ⟨0, _⟩ => exact lhs_A_0 _ _
    | ⟨1, _⟩ => exact (lhs_A_1 _ _).trans hk)
  have er : dot_S512x2048_S16x2048_S512x16_1_1_0_0_n_n.rhsIdx (ix2 p r) ((contrEquiv1 dot_S512x2048_S16x2048_S512x16_1_1_0_0_n_n 2048 rfl rfl).symm k) = ix2 r k := funext fun a => Fin.ext (by
    match a with
    | ⟨0, _⟩ => exact rhs_A_0 _ _
    | ⟨1, _⟩ => exact (rhs_A_1 _ _).trans hk)
  rw [el, er]

theorem lhs_B_0 (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl
theorem lhs_B_1 (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q
theorem rhs_B_0 (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q
theorem rhs_B_1 (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl

/-- The second low-rank product: row `p` of the projected block against column `q` of the transposed second factor. -/
theorem up_apply (y : FVec Ideal S512x16 .bf16) (bt : FVec Ideal S16x2048 .bf16) (p : Fin 512) (q : Fin 2048) :
    matmul dot_S512x16_S16x2048_S512x2048_1_0_0_1_n_n none y bt (constant S512x2048 .f32 0x00000000#32) (ix2 p q)
      = ∑ r : Fin 16, y (ix2 p r) * bt (ix2 r q) := by
  simp only [matmul]
  rw [Ideal.matmul_constant_zero_apply, ← Equiv.sum_comp (contrEquiv1 dot_S512x16_S16x2048_S512x2048_1_0_0_1_n_n 16 rfl rfl).symm]
  refine Finset.sum_congr rfl fun k _ => ?_
  have hk := contrEquiv1_symm_val dot_S512x16_S16x2048_S512x2048_1_0_0_1_n_n 16 rfl rfl k
  have el : dot_S512x16_S16x2048_S512x2048_1_0_0_1_n_n.lhsIdx (ix2 p q) ((contrEquiv1 dot_S512x16_S16x2048_S512x2048_1_0_0_1_n_n 16 rfl rfl).symm k) = ix2 p k := funext fun a => Fin.ext (by
    match a with
    | ⟨0, _⟩ => exact lhs_B_0 _ _
    | ⟨1, _⟩ => exact (lhs_B_1 _ _).trans hk)
  have er : dot_S512x16_S16x2048_S512x2048_1_0_0_1_n_n.rhsIdx (ix2 p q) ((contrEquiv1 dot_S512x16_S16x2048_S512x2048_1_0_0_1_n_n 16 rfl rfl).symm k) = ix2 k q := funext fun a => Fin.ext (by
    match a with
    | ⟨0, _⟩ => exact (rhs_B_0 _ _).trans hk
    | ⟨1, _⟩ => exact rhs_B_1 _ _)
  rw [el, er]

/-! ## The bias row spread over the block -/

theorem bias_apply (b : FVec Ideal S1x2048 .f32) (p : Fin 512) (q : Fin 2048) :
    broadcastTo S512x2048 b broadcasts_S1x2048_S512x2048 (ix2 p q) = b (ix2 0 q) :=
  broadcastTo_apply b broadcasts_S1x2048_S512x2048 (ix2 p q) (ix2 0 q) (fun a => by
    match a with
    | ⟨0, _⟩ => rfl
    | ⟨1, _⟩ => rfl)

/-! ## The stored value at an entry -/

/-- The constant the low-rank term is scaled by: the f32 word of 2. -/
abbrev two : EReal := Ideal.ofBits .f32 0x40000000#32

/-- Entry (p, q) of what one step stores. -/
theorem stored_apply (x : Vec Ideal S512x2048 .bf16) (w : Vec Ideal S2048x2048 .bf16) (a : Vec Ideal S16x2048 .bf16)
    (bt : Vec Ideal S16x2048 .bf16) (b : Vec Ideal S1x2048 .f32) (p : Fin 512) (q : Fin 2048) :
    k0_pay1 (F := Ideal) x w a bt b (ix2 p q)
      = ((∑ k : Fin 2048, x (ix2 p k) * w (ix2 q k))
          + (∑ r : Fin 16, (∑ k : Fin 2048, x (ix2 p k) * a (ix2 r k)) * bt (ix2 r q)) * two)
        + b (ix2 0 q) := by
  unfold k0_pay1
  simp only [shapeCast_self]
  rw [addf_apply, addf_apply, mulf_apply, broadcast_apply, base_apply, up_apply, bias_apply]
  simp only [truncf_apply, down_apply]
  rfl

end Cert.KernelIdeal.Step

end
-- ==== Proof.KernelValue.lean ====
/-
  What the kernel's program leaves in its result, over the extended reals.

  The pallas_call runs 16 steps; step `t` reads rows 512·t … 512·t+511 of the gathered activations and the whole of the
  other four operands, and writes rows 512·t … 512·t+511 of the 8192 × 2048 array `combined`. The blocks tile the array, so
  after the run every entry (n, o) of it is

      (∑ₖ xs[n,k]·w[o,k]  +  (∑ᵣ (∑ₖ xs[n,k]·a[r,k])·bt[r,o]) · 2)  +  b[0,o]

  of the arrays the host lines before the call prepared: `xs` the gathered columns of the flattened input, `w` and `a` the
  weight and the first factor, `bt` the transposed second factor, `b` the bias as one row. The host lines after the call
  scatter this array into a zero array and reshape it.
-/
import proofs.«420023_j33844342292634_2_alg».proof.Proof.Gen.KernelIdeal.Frame
import proofs.«420023_j33844342292634_2_alg».proof.Proof.Payload
import Idealize.ShloMosaic.Lib.StableHlo.Run

set_option maxRecDepth 16384

noncomputable section

namespace Cert.KernelIdeal.Whole

open Cert.KernelIdeal Cert.KernelIdeal.Gen Cert.KernelIdeal.Step Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The fused linear map with its low-rank correction, entry by entry, of whole arrays. -/
def combined (xs : S8192x2048.Idx → EReal) (w : S2048x2048.Idx → EReal) (a bt : S16x2048.Idx → EReal)
    (b : S1x2048.Idx → EReal) : S8192x2048.Idx → EReal := fun i =>
  ((∑ k : Fin 2048, xs (ix2 (i 0) k) * w (ix2 (i 1) k))
      + (∑ r : Fin 16, (∑ k : Fin 2048, xs (ix2 (i 0) k) * a (ix2 r k)) * bt (ix2 r (i 1))) * two)
    + b (ix2 0 (i 1))

theorem hz : (![0, 0] : Fin 2 → Nat) = fun _ => 0 := funext fun a => by fin_cases a <;> rfl

/-- Where each window's block sits at step `t`: the activations' and the result's row block is `t`, everything else is
    block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What step `t` writes back is rows 512·t … of `combined` of the arrays the call was given. -/
theorem flushed_eq (c : Dev nD) (t : Fin cfg0.N) :
    (dats m 0 c).flushed 5 t = ((cfg0.win 5).blk t).view.read (Elt Ideal)
      (combined (V m c main_v2) (V m c main_v3) (V m c main_v4) (V m c main_v6) (V m c main_v7)) := by
  show (cfg0.win 5).cut (grid0.coords t) ((dats m 0 c).after 5 t) = _
  rw [after0_5]
  unfold out0_5
  rw [View.canon_unit_zero hz]
  simp only [View.ld_unit_zero (S := S512x2048) hz, View.ld_unit_zero (S := S2048x2048) hz, View.ld_unit_zero (S := S16x2048) hz, View.ld_unit_zero (S := S1x2048) hz]
  obtain ⟨e00, e01, e10, e11, e20, e21, e30, e31, e40, e41, e50, e51⟩ := idx_facts t
  funext j
  obtain ⟨p, q, rfl⟩ : ∃ (p : Fin 512) (q : Fin 2048), j = ix2 p q := ⟨j 0, j 1, eq_ix2 j⟩
  have ht : t.val < 16 := by have h : t.val < grid0.N := t.isLt; rw [N_0] at h; exact h
  have hn : 512 * t.val + p.val < 8192 := by have := p.isLt; omega
  have hemb : ((cfg0.win 5).blk t).view.emb (ix2 p q) = ix2 (⟨512 * t.val + p.val, hn⟩ : Fin 8192) q := by
    funext a; apply Fin.ext
    match a with
    | ⟨0, _⟩ => show win0_5.index t (0 : Fin 2) * 512 + 1 * p.val = 512 * t.val + p.val; omega
    | ⟨1, _⟩ => show win0_5.index t (1 : Fin 2) * 2048 + 1 * q.val = q.val; omega
  have hx : ∀ k : Fin 2048, iblk m c 0 t (ix2 p k) = V m c main_v2 (ix2 (⟨512 * t.val + p.val, hn⟩ : Fin 8192) k) := fun k => by
    show V m c main_v2 (((cfg0.win 0).blk t).view.emb (ix2 p k)) = V m c main_v2 (ix2 (⟨512 * t.val + p.val, hn⟩ : Fin 8192) k)
    refine congrArg _ (funext fun a => Fin.ext ?_)
    match a with
    | ⟨0, _⟩ => show win0_0.index t (0 : Fin 2) * 512 + 1 * p.val = 512 * t.val + p.val; omega
    | ⟨1, _⟩ => show win0_0.index t (1 : Fin 2) * 2048 + 1 * k.val = k.val; omega
  have hw : ∀ (o k : Fin 2048), iblk m c 1 t (ix2 o k) = V m c main_v3 (ix2 o k) := fun o k => by
    show V m c main_v3 (((cfg0.win 1).blk t).view.emb (ix2 o k)) = V m c main_v3 (ix2 o k)
    refine congrArg _ (funext fun a => Fin.ext ?_)
    match a with
    | ⟨0, _⟩ => show win0_1.index t (0 : Fin 2) * 2048 + 1 * o.val = o.val; omega
    | ⟨1, _⟩ => show win0_1.index t (1 : Fin 2) * 2048 + 1 * k.val = k.val; omega
  have ha : ∀ (r : Fin 16) (k : Fin 2048), iblk m c 2 t (ix2 r k) = V m c main_v4 (ix2 r k) := fun r k => by
    show V m c main_v4 (((cfg0.win 2).blk t).view.emb (ix2 r k)) = V m c main_v4 (ix2 r k)
    refine congrArg _ (funext fun a => Fin.ext ?_)
    match a with
    | ⟨0, _⟩ => show win0_2.index t (0 : Fin 2) * 16 + 1 * r.val = r.val; omega
    | ⟨1, _⟩ => show win0_2.index t (1 : Fin 2) * 2048 + 1 * k.val = k.val; omega
  have hbt : ∀ (r : Fin 16) (k : Fin 2048), iblk m c 3 t (ix2 r k) = V m c main_v6 (ix2 r k) := fun r k => by
    show V m c main_v6 (((cfg0.win 3).blk t).view.emb (ix2 r k)) = V m c main_v6 (ix2 r k)
    refine congrArg _ (funext fun a => Fin.ext ?_)
    match a with
    | ⟨0, _⟩ => show win0_3.index t (0 : Fin 2) * 16 + 1 * r.val = r.val; omega
    | ⟨1, _⟩ => show win0_3.index t (1 : Fin 2) * 2048 + 1 * k.val = k.val; omega
  have hb : ∀ (u : Fin 1) (k : Fin 2048), iblk m c 4 t (ix2 u k) = V m c main_v7 (ix2 u k) := fun u k => by
    show V m c main_v7 (((cfg0.win 4).blk t).view.emb (ix2 u k)) = V m c main_v7 (ix2 u k)
    refine congrArg _ (funext fun a => Fin.ext ?_)
    match a with
    | ⟨0, _⟩ => show win0_4.index t (0 : Fin 2) * 1 + 1 * u.val = u.val; omega
    | ⟨1, _⟩ => show win0_4.index t (1 : Fin 2) * 2048 + 1 * k.val = k.val; omega
  show k0_pay1 (F := Ideal) (iblk m c 0 t) (iblk m c 1 t) (iblk m c 2 t) (iblk m c 3 t) (iblk m c 4 t) (ix2 p q)
    = combined (V m c main_v2) (V m c main_v3) (V m c main_v4) (V m c main_v6) (V m c main_v7) (((cfg0.win 5).blk t).view.emb (ix2 p q))
  rw [hemb]
  refine (stored_apply (iblk m c 0 t) (iblk m c 1 t) (iblk m c 2 t) (iblk m c 3 t) (iblk m c 4 t) p q).trans ?_
  simp only [hx, hw, ha, hbt, hb]
  rfl

/-! ## The blocks tile the array -/

/-- An entry is in step `t`'s block iff each coordinate is in the block's range on its axis. -/
theorem mem_blk (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v8).slice (win0_5.rect t)).set ↔ _
  rw [View.set_slice_whole, Rect.mem_set_unit]
  exact Iff.rfl

/-- Row `n` is written by step `n / 512`. -/
theorem cover (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hlt : (i 0).val / 512 < grid0.N := by rw [N_0]; omega
  refine ⟨⟨(i 0).val / 512, hlt⟩, flush0_5 _, ?_⟩
  rw [mem_blk]
  obtain ⟨e00, e01, e10, e11, e20, e21, e30, e31, e40, e41, e50, e51⟩ := idx_facts ⟨(i 0).val / 512, hlt⟩
  intro a
  match a with
  | ⟨0, _⟩ => show win0_5.index ⟨(i 0).val / 512, hlt⟩ (0 : Fin 2) * 512 ≤ (i 0).val ∧ (i 0).val < win0_5.index ⟨(i 0).val / 512, hlt⟩ (0 : Fin 2) * 512 + 512; rw [e50]; show (i 0).val / 512 * 512 ≤ (i 0).val ∧ (i 0).val < (i 0).val / 512 * 512 + 512; omega
  | ⟨1, _⟩ => show win0_5.index ⟨(i 0).val / 512, hlt⟩ (1 : Fin 2) * 2048 ≤ (i 1).val ∧ (i 1).val < win0_5.index ⟨(i 0).val / 512, hlt⟩ (1 : Fin 2) * 2048 + 2048; rw [e51]; omega

/-- The array the call writes, after the run. -/
theorem final (c : Dev nD) : (dats m 0 c).arrAt 5 cfg0.N
    = combined (V m c main_v2) (V m c main_v3) (V m c main_v4) (V m c main_v6) (V m c main_v7) :=
  (dats m 0 c).arrAt_eq_of_cover 5 _ (fun t _ => flushed_eq m c t) cover

/-! ## The arrays the host lines before the call prepare -/

theorem V_v2 (c : Dev nD) : @Eq (FVec Ideal S8192x2048 .bf16) (V m c main_v2)
    (truncf .bf16 (Host.gather gather_S8192x4096_S2048x1_S8192x2048_0_1_n_n_1_1_81921
        (shapeCast S8192x4096 (m ((c : Thread nD τ).loc main_arg0) : FVec Ideal S2x4096x4096 .f32) shapeCasts_S2x4096x4096_S8192x4096)
        (broadcastInDim S2048x1 ![0] bcast_S2048_S2048x1_0 (m ((c : Thread nD τ).loc main_arg5) : IVec S2048 32))) bitsLt_bf16_f32) := by
  dsimp only [V, V0]
  simp only [hostOps0, hostOps0_1, hostOps0_2, List.flatten_cons, List.flatten_nil, List.append_nil, List.cons_append, List.nil_append]
  after_results <;> rfl

theorem V_v3 (c : Dev nD) : @Eq (FVec Ideal S2048x2048 .bf16) (V m c main_v3)
    (truncf .bf16 (m ((c : Thread nD τ).loc main_arg1) : FVec Ideal S2048x2048 .f32) bitsLt_bf16_f32) := by
  dsimp only [V, V0]
  simp only [hostOps0, hostOps0_1, hostOps0_2, List.flatten_cons, List.flatten_nil, List.append_nil, List.cons_append, List.nil_append]
  after_results <;> rfl

theorem V_v4 (c : Dev nD) : @Eq (FVec Ideal S16x2048 .bf16) (V m c main_v4)
    (truncf .bf16 (m ((c : Thread nD τ).loc main_arg3) : FVec Ideal S16x2048 .f32) bitsLt_bf16_f32) := by
  dsimp only [V, V0]
  simp only [hostOps0, hostOps0_1, hostOps0_2, List.flatten_cons, List.flatten_nil, List.append_nil, List.cons_append, List.nil_append]
  after_results <;> rfl

theorem V_v6 (c : Dev nD) : @Eq (FVec Ideal S16x2048 .bf16) (V m c main_v6)
    (truncf .bf16 (transpose S16x2048 [1, 0] (m ((c : Thread nD τ).loc main_arg4) : FVec Ideal S2048x16 .f32) transposes_S2048x16_S16x2048_1_0) bitsLt_bf16_f32) := by
  dsimp only [V, V0]
  simp only [hostOps0, hostOps0_1, hostOps0_2, List.flatten_cons, List.flatten_nil, List.append_nil, List.cons_append, List.nil_append]
  after_results <;> rfl

theorem V_v7 (c : Dev nD) : @Eq (FVec Ideal S1x2048 .f32) (V m c main_v7)
    (shapeCast S1x2048 (m ((c : Thread nD τ).loc main_arg2) : FVec Ideal S2048 .f32) shapeCasts_S2048_S1x2048) := by
  dsimp only [V, V0]
  simp only [hostOps0, hostOps0_1, hostOps0_2, List.flatten_cons, List.flatten_nil, List.append_nil, List.cons_append, List.nil_append]
  after_results <;> rfl

/-! ## The host lines after the call, and the run -/

/-- The program's result buffer after the lines that follow the call: `combined` scattered along the columns into a zero
    array at the (wrapped) output indices, then reshaped to the input's leading axes. -/
theorem tail_eq (c : Dev nD) :
    @Eq (FVec Ideal S2x4096x4096 .f32) (Pipeline.afterTail₀ cfgs (dats m) 0 (V0 m) [hostOps1] c main_v17)
      (shapeCast S2x4096x4096 (Host.scatter scatter_S8192x4096_S2048x1_S8192x2048_0_1_1_1 (fun _ b => b)
        (broadcastInDim S8192x4096 ![] bcast_S_S8192x4096 (constant (F := Ideal) S_ .f32 0x00000000#32))
        (broadcastInDim S2048x1 ![0] bcast_S2048_S2048x1_0
          (select (cmpi .slt (m ((c : Thread nD τ).loc main_arg6) : IVec S2048 32) (broadcastInDim S2048 ![] bcast_S_S2048 (constantI S_ 32 0#32)))
            (addi (m ((c : Thread nD τ).loc main_arg6) : IVec S2048 32) (broadcastInDim S2048 ![] bcast_S_S2048 (constantI S_ 32 4096#32)))
            (m ((c : Thread nD τ).loc main_arg6) : IVec S2048 32)))
        (combined (V m c main_v2) (V m c main_v3) (V m c main_v4) (V m c main_v6) (V m c main_v7)))
        shapeCasts_S8192x4096_S2x4096x4096) := by
  unfold Pipeline.afterTail₀
  show StableHlo.after hostOps1 _ (Proc.devRef .tc main_v17) = _
  after_results
  have h8 : Pipeline.withArrays (cfgs 0).spec c (V0 m c) (fun w => (dats m 0 c).arrAt w (cfgs 0).N) (Proc.devRef .tc main_v8)
      = combined (V m c main_v2) (V m c main_v3) (V m c main_v4) (V m c main_v6) (V m c main_v7) :=
    (Pipeline.withArrays_arr spec0 launch0.win.arr_inj c _ _ 5).trans (final m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  rw [h8, h6]
  rfl

/-- The result the kernel's program ends with, as one term of its arguments. -/
abbrev result (c : Dev nD) : FVec Ideal S2x4096x4096 .f32 :=
  shapeCast S2x4096x4096 (Host.scatter scatter_S8192x4096_S2048x1_S8192x2048_0_1_1_1 (fun _ b => b)
    (broadcastInDim S8192x4096 ![] bcast_S_S8192x4096 (constant (F := Ideal) S_ .f32 0x00000000#32))
    (broadcastInDim S2048x1 ![0] bcast_S2048_S2048x1_0
      (select (cmpi .slt (m ((c : Thread nD τ).loc main_arg6) : IVec S2048 32) (broadcastInDim S2048 ![] bcast_S_S2048 (constantI S_ 32 0#32)))
        (addi (m ((c : Thread nD τ).loc main_arg6) : IVec S2048 32) (broadcastInDim S2048 ![] bcast_S_S2048 (constantI S_ 32 4096#32)))
        (m ((c : Thread nD τ).loc main_arg6) : IVec S2048 32)))
    (combined (V m c main_v2) (V m c main_v3) (V m c main_v4) (V m c main_v6) (V m c main_v7)))
    shapeCasts_S8192x4096_S2x4096x4096

/-- Every weakly fair execution of the kernel's program ends with the result buffer at `result` and the arguments as
    launched. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(((h c).2 main_v17 (Pipeline.mem_restRefs_of main_v17 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Whole

end
-- ==== Proof.IndexDomain.lean ====
/-
  What the precondition says of the gather indices.

  The precondition is a conjunction of five finiteness tests and of `all (in_indices ≥ 0)`. Of it the proof uses the
  last conjunct only: every gather index, read as a signed 32-bit integer, is non-negative. For such an index the
  reference's wrap-around of negative positions (`i < 0 ? i + 4096 : i`) is the identity, so both programs hand the
  same index vector to the same gather.
-/
import proofs.«420023_j33844342292634_2_alg».proof.Pre_finite_inputs
import Idealize.ShloMosaic.Lib.ReduceAll
import Idealize.ShloMosaic.Lib.ValueIdx

noncomputable section

namespace Cert.IndexDomain

open Idealize.ShloMosaic Idealize.ShloMosaic.ValueIdx Cert.Pre_finite_inputs

instance : Subsingleton S_.Idx := ⟨fun a b => funext fun d => d.elim0⟩

/-- Under the precondition every gather index passes the signed test `0 ≤ i`. -/
theorem nonneg_of_pre {F : FTy → Type} [FloatOps F] [Facts] (a0 : FVec F S2x4096x4096 .f32) (a1 : FVec F S2048x2048 .f32)
    (a2 : FVec F S2048 .f32) (a3 : FVec F S16x2048 .f32) (a4 : FVec F S2048x16 .f32) (a5 a6 : IVec S2048 32)
    (h : fn (F := F) a0 a1 a2 a3 a4 a5 a6 = fun _ => 1#1) (j : S2048.Idx) :
    IntOp.cmpi .sge (a5 j) 0#32 = 1#1 := by
  have h0 := congrFun h ix0
  dsimp only [fn, fn_part1] at h0
  have h1 := (IntOp.andi_eq_one.1 h0).2
  exact Host.reduce_andi_all _ _ _ _ _ h1 j

/-- A word that passes `0 ≤ i` fails `i < 0`, so the wrap-around select returns it unchanged. -/
theorem wrap_id (x y : BitVec 32) (h : IntOp.cmpi .sge x 0#32 = 1#1) :
    Scalar.select (IntOp.cmpi .slt x 0#32) y x = x := by
  have hlt : IntOp.cmpi .slt x 0#32 = 0#1 := by
    simp only [IntOp.cmpi] at h ⊢
    have h' : (0#32).sle x = true := by
      cases hb : (0#32).sle x
      · rw [hb] at h; exact absurd h (by decide)
      · rfl
    have : x.slt 0#32 = false := by
      rw [BitVec.sle_iff_toInt_le] at h'
      cases hb : x.slt 0#32
      · rfl
      · rw [BitVec.slt_iff_toInt_lt] at hb; omega
    rw [this]; rfl
  rw [hlt]; exact select_zero _ _

end Cert.IndexDomain

end
-- ==== Proof.RefValue.lean ====
/-
  What the reference computes before its scatter, over the extended reals.

  With `xs` the gathered columns of the flattened input, entry (n, o) of the reference's `combined` is

      (∑ₖ xs[n,k]·W[o,k]  +  b[o])  +  (∑ᵣ (∑ₖ xs[n,k]·A[r,k])·B[o,r]) · 2 :

  each einsum is a plain sum of products over the extended reals, and the bias is spread along the rows. When every gather
  index is non-negative the wrap-around of negative positions does nothing, and `xs` is the gather at the indices as given.
-/
import proofs.«420023_j33844342292634_2_alg».proof.Proof.Gen.ReferenceIdeal.Read
import proofs.«420023_j33844342292634_2_alg».proof.Proof.IndexDomain

noncomputable section

namespace Cert.ReferenceIdeal.Whole

open Cert.ReferenceIdeal Cert.ReferenceIdeal.Gen Cert.ReferenceIdeal.Read Idealize.ShloMosaic Idealize.ShloMosaic.ValueIdx

/-- The f32 word of 2 the low-rank term is scaled by. -/
abbrev two : EReal := Ideal.ofBits .f32 0x40000000#32

/-- Entry by entry: the base product plus the bias, plus twice the low-rank product. -/
theorem combined_apply (x0 : S2x4096x4096.Idx → EReal) (x1 : S2048x2048.Idx → EReal) (x2 : S2048.Idx → EReal)
    (x3 : S16x2048.Idx → EReal) (x4 : S2048x16.Idx → EReal) (x5 : IVec S2048 32) (n : Fin 8192) (o : Fin 2048) :
    val_main_v16 (F := Ideal) x0 x1 x2 x3 x4 x5 (ix2 n o)
      = ((∑ k : Fin 2048, val_main_v7 (F := Ideal) x0 x5 (ix2 n k) * x1 (ix2 o k)) + x2 (ix1 o))
        + (∑ r : Fin 16, (∑ k : Fin 2048, val_main_v7 (F := Ideal) x0 x5 (ix2 n k) * x3 (ix2 r k)) * x4 (ix2 o r)) * two := by
  have e12l : ∀ k : Fin 2048, lidx_main_v12 (ix2 n o) k = ix2 n k := fun k => funext fun a => Fin.ext (by
    match a with | ⟨0, _⟩ => rfl | ⟨1, _⟩ => rfl)
  have e12r : ∀ k : Fin 2048, ridx_main_v12 (ix2 n o) k = ix2 o k := fun k => funext fun a => Fin.ext (by
    match a with | ⟨0, _⟩ => rfl | ⟨1, _⟩ => rfl)
  have e9l : ∀ r : Fin 16, lidx_main_v9 (ix2 n o) r = ix2 n r := fun r => funext fun a => Fin.ext (by
    match a with | ⟨0, _⟩ => rfl | ⟨1, _⟩ => rfl)
  have e9r : ∀ r : Fin 16, ridx_main_v9 (ix2 n o) r = ix2 o r := fun r => funext fun a => Fin.ext (by
    match a with | ⟨0, _⟩ => rfl | ⟨1, _⟩ => rfl)
  have e8l : ∀ (r : Fin 16) (k : Fin 2048), lidx_main_v8 (ix2 n r) k = ix2 n k := fun r k => funext fun a => Fin.ext (by
    match a with | ⟨0, _⟩ => rfl | ⟨1, _⟩ => rfl)
  have e8r : ∀ (r : Fin 16) (k : Fin 2048), ridx_main_v8 (ix2 n r) k = ix2 r k := fun r k => funext fun a => Fin.ext (by
    match a with | ⟨0, _⟩ => rfl | ⟨1, _⟩ => rfl)
  have e14 : idx_main_v13 (idx_main_v14 (ix2 n o)) = ix1 o := funext fun a => Fin.ext (by
    match a with | ⟨0, _⟩ => rfl)
  rw [val_main_v16_apply, val_main_v15_apply, val_main_v11_apply, val_main_v12_apply, val_main_v14_apply, val_main_v13_apply,
    val_main_v9_apply, val_main_v10_apply, val_main_cst_apply, e14]
  simp only [val_main_v8_apply, e12l, e12r, e9l, e9r, e8l, e8r]
  rfl

/-- With non-negative indices the reference gathers at the indices as given. -/
theorem gathered_eq (x0 : S2x4096x4096.Idx → EReal) (x5 : IVec S2048 32)
    (hnn : ∀ j : S2048.Idx, IntOp.cmpi .sge (x5 j) 0#32 = 1#1) :
    val_main_v7 (F := Ideal) x0 x5
      = Host.gather gather_S8192x4096_S2048x1_S8192x2048_0_1_n_n_1_1_81921
          (shapeCast _ x0 shapeCasts_S2x4096x4096_S8192x4096) (broadcastInDim S2048x1 ![0] bcast_S2048_S2048x1_0 x5) := by
  have h5 : val_main_v5 (F := Ideal) x5 = x5 := funext fun j => by
    rw [val_main_v5_apply, val_main_v2_apply]
    exact Cert.IndexDomain.wrap_id (x5 j) _ (hnn j)
  unfold val_main_v7 val_main_v6 val_main_v0
  rw [h5]

end Cert.ReferenceIdeal.Whole

end
-- ==== Proof.Bridge.lean ====
/-
  The two `combined` arrays are one function of the arguments.

  Kernel: (∑ₖ xs[n,k]·w[o,k] + (∑ᵣ (∑ₖ xs[n,k]·a[r,k])·bt[r,o])·2) + b[0,o], where over the extended reals the
  narrowed operands are the arguments themselves, `bt[r,o]` is `B[o,r]` and `b[0,o]` is `bias[o]`.
  Reference: (∑ₖ xs[n,k]·W[o,k] + bias[o]) + (∑ᵣ (∑ₖ xs[n,k]·A[r,k])·B[o,r])·2.
  The two differ by the order of the last two summands: addition of extended reals is commutative and associative, so no
  finiteness is used. The gathered `xs` agree because the gather indices are non-negative.
-/
import proofs.«420023_j33844342292634_2_alg».proof.Proof.KernelValue
import proofs.«420023_j33844342292634_2_alg».proof.Proof.RefValue
import Idealize.ShloMosaic.Lib.ValueLayout

noncomputable section

namespace Cert.Bridge

open Idealize.ShloMosaic Idealize.ShloMosaic.ValueIdx Cert.KernelIdeal Cert.KernelIdeal.Facts₀ Cert.KernelIdeal.Facts

/-- The transposed second factor at (r, o) is the factor at (o, r). -/
theorem transposed_apply (x4 : FVec Ideal S2048x16 .f32) (r : Fin 16) (o : Fin 2048) :
    transpose S16x2048 [1, 0] x4 transposes_S2048x16_S16x2048_1_0 (ix2 r o) = x4 (ix2 o r) :=
  transpose_apply _ x4 _ (ix2 r o) (ix2 o r) (fun b => by
    match b with
    | ⟨0, _⟩ => rfl
    | ⟨1, _⟩ => rfl)

/-- The bias as one row, at (0, o), is the bias at o. -/
theorem bias_row_apply (x2 : FVec Ideal S2048 .f32) (o : Fin 2048) :
    shapeCast S1x2048 x2 shapeCasts_S2048_S1x2048 (ix2 0 o) = x2 (ix1 o) :=
  shapeCast_a_1a_apply x2 _ 0 o

/-- The reference's `combined` is the kernel's, of the arrays the kernel's host lines prepare from the same arguments. -/
theorem combined_eq (x0 : FVec Ideal S2x4096x4096 .f32) (x1 : FVec Ideal S2048x2048 .f32)
    (x2 : FVec Ideal S2048 .f32) (x3 : FVec Ideal S16x2048 .f32) (x4 : FVec Ideal S2048x16 .f32)
    (x5 : IVec S2048 32) (hnn : ∀ j : S2048.Idx, IntOp.cmpi .sge (x5 j) 0#32 = 1#1) :
    Cert.ReferenceIdeal.Read.val_main_v16 (F := Ideal) x0 x1 x2 x3 x4 x5
      = Cert.KernelIdeal.Whole.combined
          (truncf (F := Ideal) .bf16 (Host.gather gather_S8192x4096_S2048x1_S8192x2048_0_1_n_n_1_1_81921
            (shapeCast S8192x4096 x0 shapeCasts_S2x4096x4096_S8192x4096)
            (broadcastInDim S2048x1 ![0] bcast_S2048_S2048x1_0 x5)) bitsLt_bf16_f32)
          (truncf (F := Ideal) .bf16 x1 bitsLt_bf16_f32)
          (truncf (F := Ideal) .bf16 x3 bitsLt_bf16_f32)
          (truncf (F := Ideal) .bf16 (transpose S16x2048 [1, 0] x4 transposes_S2048x16_S16x2048_1_0) bitsLt_bf16_f32)
          (shapeCast S1x2048 x2 shapeCasts_S2048_S1x2048) := by
  funext i
  obtain ⟨n, o, rfl⟩ : ∃ (n : Fin 8192) (o : Fin 2048), i = ix2 n o := ⟨i 0, i 1, eq_ix2 i⟩
  rw [Cert.ReferenceIdeal.Whole.combined_apply, Cert.ReferenceIdeal.Whole.gathered_eq x0 x5 hnn]
  unfold Cert.KernelIdeal.Whole.combined
  simp only [truncf_apply, show (ix2 n o) 0 = n from rfl, show (ix2 n o) 1 = o from rfl, bias_row_apply]
  have ht : ∀ r : Fin 16, (transpose S16x2048 [1, 0] x4 transposes_S2048x16_S16x2048_1_0 : FVec Ideal S16x2048 .f32) (ix2 r o) = x4 (ix2 o r) :=
    fun r => transposed_apply x4 r o
  simp only [ht]
  exact add_right_comm (G := EReal) _ _ _

end Cert.Bridge

end
-- ==== Proof.lean ====
/-
  A linear layer on a column subset with a rank-16 correction: gather 2048 of the 4096 input columns, apply
  `x ↦ x·Wᵀ + bias + 2·(x·Aᵀ)·Bᵀ`, and scatter the 2048 result columns into a zero array of 4096 columns.

  The kernel's program gathers with clamped indices, narrows the operands, computes `(x·Wᵀ + 2·(x·Aᵀ)·Bᵀ) + bias` in 16
  row blocks of 512 inside one pallas_call, and scatters. The reference wraps negative gather indices around, then
  computes `(x·Wᵀ + bias) + 2·(x·Aᵀ)·Bᵀ` with three einsums, and scatters in the same way.

  Over the extended reals narrowing is the identity and every product is a plain sum of products, so the two arrays that
  are scattered differ only in the order of two summands; addition of extended reals is commutative and associative, and the
  finiteness of the inputs is not used. The gathers agree when the gather indices are non-negative, which the
  precondition states: there the wrap-around is the identity (and at 4096 or above both gathers clamp to the last column).
  Both programs then apply the same scatter and reshape to equal arrays.

  The three frames: the kernel's two are the generated frame certificates; the reference's is its generated run with the
  result dropped. The idealization rewrote nothing, so `preserves` is `True`.
-/
import proofs.«420023_j33844342292634_2_alg».proof.Defs
import proofs.«420023_j33844342292634_2_alg».proof.Proof.Gen.Kernel
import proofs.«420023_j33844342292634_2_alg».proof.Proof.Gen.Kernel.Skeleton
import proofs.«420023_j33844342292634_2_alg».proof.Proof.Gen.Kernel.Launch
import proofs.«420023_j33844342292634_2_alg».proof.Proof.Gen.Kernel.Points
import proofs.«420023_j33844342292634_2_alg».proof.Proof.Gen.Kernel.Frame
import proofs.«420023_j33844342292634_2_alg».proof.Proof.Gen.KernelIdeal
import proofs.«420023_j33844342292634_2_alg».proof.Proof.Gen.KernelIdeal.Skeleton
import proofs.«420023_j33844342292634_2_alg».proof.Proof.Gen.KernelIdeal.Launch
import proofs.«420023_j33844342292634_2_alg».proof.Proof.Gen.KernelIdeal.Points
import proofs.«420023_j33844342292634_2_alg».proof.Proof.Gen.KernelIdeal.Frame
import proofs.«420023_j33844342292634_2_alg».proof.Proof.Gen.ReferenceIdeal
import proofs.«420023_j33844342292634_2_alg».proof.Proof.Gen.ReferenceIdeal.Run
import proofs.«420023_j33844342292634_2_alg».proof.Proof.Gen.ReferenceIdeal.Read
import proofs.«420023_j33844342292634_2_alg».proof.Proof.Gen.Pre_finite_inputs
import proofs.«420023_j33844342292634_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with non-negative gather indices, both programs end with the scatter of
    one and the same `combined` array. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  have hnn := fun j => Cert.IndexDomain.nonneg_of_pre (F := Ideal) _ _ _ _ _ _ _ (hpre c) j
  rw [a0, a1, a2, a3, a4, a5, a6]
  show _ = Cert.KernelIdeal.Whole.result m c
  unfold Cert.KernelIdeal.Whole.result
  rw [Cert.KernelIdeal.Whole.V_v2, Cert.KernelIdeal.Whole.V_v3, Cert.KernelIdeal.Whole.V_v4, Cert.KernelIdeal.Whole.V_v6,
    Cert.KernelIdeal.Whole.V_v7, ← Cert.Bridge.combined_eq _ _ _ _ _ _ hnn]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
